-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x256 : Shape := ⟨3, ![4, 2048, 256]⟩
abbrev S16384x256 : Shape := ⟨2, ![16384, 256]⟩
abbrev S_ : Shape := ⟨0, ![]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S4x2048x256 .f32) (main_arg1 : FVec F S16384x256 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S4x2048x256 : Shape := ⟨3, ![4, 2048, 256]⟩
abbrev S16384x256 : Shape := ⟨2, ![16384, 256]⟩
abbrev S8192x256 : Shape := ⟨2, ![8192, 256]⟩
abbrev S8192x16384 : Shape := ⟨2, ![8192, 16384]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x256 : Shape := ⟨2, ![1, 256]⟩
abbrev S1x1024 : Shape := ⟨2, ![1, 1024]⟩
abbrev S4x2048x16384 : Shape := ⟨3, ![4, 2048, 16384]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x256, .f32⟩
  | .hbm, ⟨1, _⟩ => ⟨S16384x256, .f32⟩
  | .hbm, ⟨2, _⟩ => ⟨S8192x256, .f32⟩
  | .hbm, ⟨3, _⟩ => ⟨S8192x16384, .f32⟩
  | .hbm, ⟨4, _⟩ => ⟨S4x2048x16384, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x2048x256_S8192x256 : S4x2048x256.ShapeCasts S8192x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S8192x16384_S4x2048x16384 : S8192x16384.ShapeCasts S4x2048x16384
  dot_S1x256_S1024x256_S1x1024_1_1_0_0_n_n_wf : DotDims.WF S1x256 S1024x256 S1x1024 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .f32 = 32 ∨ (Rect.block (s := S16384x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x16384.size a
  hwx0_2 : ∀ i : grid0.Coords, EltTy.bits .f32 = 32 ∨ (Rect.block (s := S8192x16384) S1024x1024.size (cc0_transform_2 i) (hinb0_2 i)).WholeWords (EltTy.packing .f32)

variable [Facts₀]

def dot_S1x256_S1024x256_S1x1024_1_1_0_0_n_n : DotDims S1x256 S1024x256 S1x1024 where
  lhsContracting := [1]
  rhsContracting := [1]
  lhsNonContracting := [0]
  rhsNonContracting := [0]
  lhsBatch := []
  rhsBatch := []
  wf := dot_S1x256_S1024x256_S1x1024_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x256 : Shape := ⟨3, ![4, 2048, 256]⟩
abbrev S16384x256 : Shape := ⟨2, ![16384, 256]⟩
abbrev S_ : Shape := ⟨0, ![]⟩
abbrev S4x2048 : Shape := ⟨2, ![4, 2048]⟩
abbrev S4x2048x1 : Shape := ⟨3, ![4, 2048, 1]⟩
abbrev S16384 : Shape := ⟨1, ![16384]⟩
abbrev S4x2048x16384 : Shape := ⟨3, ![4, 2048, 16384]⟩
abbrev S1x1x16384 : Shape := ⟨3, ![1, 1, 16384]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S16384x256, .f32⟩
  | .hbm, ⟨2, _⟩ => ⟨S4x2048x256, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S16384x256, .f32⟩
  | .hbm, ⟨7, _⟩ => ⟨S_, .f32⟩
  | .hbm, ⟨8, _⟩ => ⟨S16384, .f32⟩
  | .hbm, ⟨9, _⟩ => ⟨S4x2048x16384, .f32⟩
  | .hbm, ⟨10, _⟩ => ⟨S_, .f32⟩
  | .hbm, ⟨11, _⟩ => ⟨S4x2048x16384, .f32⟩
  | .hbm, ⟨12, _⟩ => ⟨S4x2048x16384, .f32⟩
  | .hbm, ⟨13, _⟩ => ⟨S4x2048x16384, .f32⟩
  | .hbm, ⟨14, _⟩ => ⟨S4x2048x16384, .f32⟩
  | .hbm, ⟨15, _⟩ => ⟨S1x1x16384, .f32⟩
  | .hbm, ⟨16, _⟩ => ⟨S4x2048x16384, .f32⟩
  | .hbm, ⟨17, _⟩ => ⟨S4x2048x16384, .f32⟩
  | .hbm, ⟨18, _⟩ => ⟨S_, .f32⟩
  | .hbm, ⟨19, _⟩ => ⟨S4x2048x16384, .f32⟩
  | .hbm, ⟨20, _⟩ => ⟨S4x2048x16384, .f32⟩
  | .hbm, ⟨21, _⟩ => ⟨S4x2048x16384, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4x2048x256_S4x2048_d2 : S4x2048x256.ReducesTo [2] S4x2048
  h_S_ : 0 < S_.numel
  bcast_S4x2048_S4x2048x1_0_1 : S4x2048.BroadcastsInDim S4x2048x1 (![0, 1] : Fin 2 → Fin S4x2048x1.rank)
  reducesTo_S16384x256_S16384_d1 : S16384x256.ReducesTo [1] S16384
  bcast_S_S4x2048x16384 : S_.BroadcastsInDim S4x2048x16384 (![] : Fin 0 → Fin S4x2048x16384.rank)
  bcast_S4x2048x1_S4x2048x16384_0_1_2 : S4x2048x1.BroadcastsInDim S4x2048x16384 (![0, 1, 2] : Fin 3 → Fin S4x2048x16384.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x256_S16384x256_S4x2048x16384_2_1_01_0_n_n_wf : DotDims.WF S4x2048x256 S16384x256 S4x2048x16384 [2] [1] [0, 1] [0] [] []

variable [Facts₀]

def dot_S4x2048x256_S16384x256_S4x2048x16384_2_1_01_0_n_n : DotDims S4x2048x256 S16384x256 S4x2048x16384 where
  lhsContracting := [2]
  rhsContracting := [1]
  lhsNonContracting := [0, 1]
  rhsNonContracting := [0]
  lhsBatch := []
  rhsBatch := []
  wf := dot_S4x2048x256_S16384x256_S4x2048x16384_2_1_01_0_n_n_wf

class Facts : Prop extends Facts₀ where

variable [Facts]
-- ==== Proof.Spec.lean ====
/-
  The distance between two rows of 256 extended reals, in the grouping both programs compute it:
  sqrt (max ((‖x‖² − 2·⟨x, y⟩) + ‖y‖², 0)), where the squared norms and the inner product are plain sums over
  the 256 coordinates, "2" and "0" are the values of the f32 words 0x40000000 and 0x00000000, the square root is the
  extended reals' (√⊤ = ⊤, ⊥ below zero) and the maximum is the order's. The kernel's result at (row r of the
  flattened h, row v of the codebook) and the reference's at (b, s, v) are both this number of the two rows.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Cdist

/-- ‖x − y‖ of two rows, written as sqrt (max ((Σ x² − 2 Σ x·y) + Σ y², 0)). -/
def rowDist (x y : Fin 256 → EReal) : EReal :=
  Ideal.sqrt (max ((∑ k : Fin 256, x k * x k - Ideal.ofBits .f32 0x40000000#32 * ∑ k : Fin 256, x k * y k)
    + ∑ k : Fin 256, y k * y k) (Ideal.ofBits .f32 0x00000000#32))

/-- The f32 word of 1.0 denotes the extended real 1. -/
theorem ofBits_one_f32 : Ideal.ofBits .f32 0x3F800000#32 = 1 := IdealRules.sign_bit.ideal_onePat .f32

/-- Row r of a two-axis array as a function of the column. -/
abbrev row2 {M : Nat} (a : (⟨2, ![M, 256]⟩ : Shape).Idx → EReal) (r : Fin M) : Fin 256 → EReal := fun k => a (ix2 r k)

/-- Row (b, s) of a three-axis array as a function of the last coordinate. -/
abbrev row3 {A B : Nat} (a : (⟨3, ![A, B, 256]⟩ : Shape).Idx → EReal) (b : Fin A) (s : Fin B) : Fin 256 → EReal :=
  fun k => a (ix3 b s k)

/-- The whole result over the flattened rows: entry (r, v) is the distance from row r of `a` to row v of `w`. -/
def dist2 {M N : Nat} (a : (⟨2, ![M, 256]⟩ : Shape).Idx → EReal) (w : (⟨2, ![N, 256]⟩ : Shape).Idx → EReal) :
    (⟨2, ![M, N]⟩ : Shape).Idx → EReal :=
  fun j => rowDist (row2 a (j 0)) (row2 w (j 1))

/-- The whole result over (batch, position, code): entry (b, s, v) is the distance from row (b, s) of `h` to row v of `w`. -/
def dist3 {A B N : Nat} (h : (⟨3, ![A, B, 256]⟩ : Shape).Idx → EReal) (w : (⟨2, ![N, 256]⟩ : Shape).Idx → EReal) :
    (⟨3, ![A, B, N]⟩ : Shape).Idx → EReal :=
  fun i => rowDist (row3 h (i 0) (i 1)) (row2 w (i 2))

end Cert.Cdist

end
-- ==== Proof.Layout.lean ====
/-
  The two reshapes around the kernel's region, read at an index. Flattening h from 4 × 2048 × 256 to 8192 × 256 puts row
  (b, s) at row 2048·b + s, and laying the 8192 × 16384 distance array out as 4 × 2048 × 16384 reads entry (b, s, v) at
  (2048·b + s, v): so the distances computed over the flattened rows, laid out again, are the distances over (b, s, v).
-/
import proofs.«143879_j29695403884916_1_alg».proof.Proof.Spec
import Idealize.ShloMosaic.Lib.Pipeline.Value
import Idealize.ShloMosaic.Lib.ValueIdx

noncomputable section

open Idealize.ShloMosaic Idealize.ShloMosaic.ValueIdx

namespace Cert.Cdist

/-- Row `2048·b + s` of the flattened array is row `(b, s)` of the array. -/
theorem flat_row (h : (⟨3, ![4, 2048, 256]⟩ : Shape).Idx → EReal)
    (hc : (⟨3, ![4, 2048, 256]⟩ : Shape).ShapeCasts ⟨2, ![8192, 256]⟩) (b : Fin 4) (s : Fin 2048) (r : Fin 8192)
    (hr : r.val = b.val * 2048 + s.val) :
    row2 (M := 8192) (shapeCast ⟨2, ![8192, 256]⟩ h hc) r = row3 h b s := by
  funext k
  show shapeCast ⟨2, ![8192, 256]⟩ h hc (ix2 r k) = h (ix3 b s k)
  refine shapeCast_apply h hc _ _ ?_
  rw [Shape.rowMajor_val_three, Shape.rowMajor_val_two]
  show (b.val * 2048 + s.val) * 256 + k.val = r.val * 256 + k.val
  rw [hr]

/-- The distances over the flattened rows, laid out as 4 × 2048 × 16384, are the distances over (b, s, v). -/
theorem result_eq (h : (⟨3, ![4, 2048, 256]⟩ : Shape).Idx → EReal) (w : (⟨2, ![16384, 256]⟩ : Shape).Idx → EReal)
    (hc1 : (⟨3, ![4, 2048, 256]⟩ : Shape).ShapeCasts ⟨2, ![8192, 256]⟩)
    (hc2 : (⟨2, ![8192, 16384]⟩ : Shape).ShapeCasts ⟨3, ![4, 2048, 16384]⟩) :
    shapeCast ⟨3, ![4, 2048, 16384]⟩ (dist2 (M := 8192) (N := 16384) (shapeCast ⟨2, ![8192, 256]⟩ h hc1) w) hc2
      = dist3 (A := 4) (B := 2048) (N := 16384) h w := by
  funext i
  obtain ⟨b, s, v, rfl⟩ : ∃ (b : Fin 4) (s : Fin 2048) (v : Fin 16384), i = ix3 b s v := ⟨i 0, i 1, i 2, eq_ix3 i⟩
  have hlt : b.val * 2048 + s.val < 8192 := by omega
  refine (shapeCast_apply _ hc2 (ix3 b s v) (ix2 (⟨b.val * 2048 + s.val, hlt⟩ : Fin 8192) v) ?_).trans ?_
  · rw [Shape.rowMajor_val_three, Shape.rowMajor_val_two]
    rfl
  · show rowDist (row2 (M := 8192) (shapeCast ⟨2, ![8192, 256]⟩ h hc1) ⟨b.val * 2048 + s.val, hlt⟩) (row2 w v)
      = rowDist (row3 h b s) (row2 w v)
    rw [flat_row h hc1 b s ⟨b.val * 2048 + s.val, hlt⟩ rfl]

end Cert.Cdist

end
-- ==== Proof.Payload.lean ====
/-
  What the kernel body stores at entry (p, q) of its 1024 × 1024 output block, read at the ideal values: the distance
  between row p of the first loaded block and row q of the second. The body's three sums are each read as a plain sum over
  the 256 coordinates: the lane reduction of x₀ ∘ x₀ (kept as a column and broadcast along the rows), the product
  ones(1 × 256) · (x₁ ∘ x₁)ᵀ (a row, broadcast down the columns; each term is 1 · x₁², and 1 · t = t on the extended reals),
  and the product x₀ · x₁ᵀ after the bf16 format change, which is the identity at the ideal values.
-/
import proofs.«143879_j29695403884916_1_alg».proof.Proof.Gen.KernelIdeal.Skeleton
import proofs.«143879_j29695403884916_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Idealize.SL.Sem

namespace Cert.KernelIdeal.Payload

open Cert.KernelIdeal Cert.KernelIdeal.Gen Cert.Cdist

variable {α : Type}

/-! ## The keepdims column: a vector as a column, and a column broadcast along the rows -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The lane sum of a block's rows -/

/-- The sum over the 256 lanes, at row `p`. -/
theorem rowsum_apply (y : FVec Ideal S1024x256 .f32) (p : Fin 1024) :
    multiReduction .add [1] S1024 y 0x00000000#32 reduces_S1024x256_S1024 (.inl rfl) rfl (ix1 p)
      = ∑ k : Fin 256, y (ix2 p k) := by
  refine (Ideal.multiReduction_add_single y 0x00000000#32 reduces_S1024x256_S1024 (.inl rfl) rfl (ix1 p)).trans ?_
  refine Finset.sum_congr rfl fun k _ => ?_
  exact congrArg y (funext fun a => Fin.ext (by match a with | ⟨0, _⟩ => rfl | ⟨1, _⟩ => rfl))

/-! ## The two products, each at an entry -/

theorem lhs_cross_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_cross_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_cross_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_cross_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- Rows times rows: entry `(p, q)` of `l · rᵀ` into the zero accumulator is the inner product of row `p` of `l` and row `q` of `r`. -/
theorem cross_apply (l r : FVec Ideal S1024x256 .bf16) (p q : Fin 1024) :
    matmul dot_S1024x256_S1024x256_S1024x1024_1_1_0_0_n_n none l r (constant S1024x1024 .f32 0x00000000#32) (ix2 p q)
      = ∑ k : Fin 256, l (ix2 p k) * r (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_cross_0 _ _
    | ⟨1, _⟩ => exact (lhs_cross_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_cross_0 _ _
    | ⟨1, _⟩ => exact (rhs_cross_1 _ _).trans hk)
  rw [el, er]

theorem lhs_ones_0 (i : S1x1024.Idx) (q : dot_S1x256_S1024x256_S1x1024_1_1_0_0_n_n.contr.Idx) :
    (dot_S1x256_S1024x256_S1x1024_1_1_0_0_n_n.lhsIdx i q 0).val = (i 0).val := by
  unfold DotDims.lhsIdx
  rw [dif_neg (show ¬(0 : Fin S1x256.rank) ∈ dot_S1x256_S1024x256_S1x1024_1_1_0_0_n_n.lhsBatch by decide), dif_pos (show (0 : Fin S1x256.rank) ∈ dot_S1x256_S1024x256_S1x1024_1_1_0_0_n_n.lhsNonContracting by decide)]
  rfl
theorem lhs_ones_1 (i : S1x1024.Idx) (q : dot_S1x256_S1024x256_S1x1024_1_1_0_0_n_n.contr.Idx) :
    (dot_S1x256_S1024x256_S1x1024_1_1_0_0_n_n.lhsIdx i q 1).val = (q ⟨0, by decide⟩).val :=
  dot_S1x256_S1024x256_S1x1024_1_1_0_0_n_n.lhsIdx_val_of_single rfl i q
theorem rhs_ones_0 (i : S1x1024.Idx) (q : dot_S1x256_S1024x256_S1x1024_1_1_0_0_n_n.contr.Idx) :
    (dot_S1x256_S1024x256_S1x1024_1_1_0_0_n_n.rhsIdx i q 0).val = (i 1).val := by
  unfold DotDims.rhsIdx
  rw [dif_neg (show ¬(0 : Fin S1024x256.rank) ∈ dot_S1x256_S1024x256_S1x1024_1_1_0_0_n_n.rhsBatch by decide), dif_pos (show (0 : Fin S1024x256.rank) ∈ dot_S1x256_S1024x256_S1x1024_1_1_0_0_n_n.rhsNonContracting by decide)]
  rfl
theorem rhs_ones_1 (i : S1x1024.Idx) (q : dot_S1x256_S1024x256_S1x1024_1_1_0_0_n_n.contr.Idx) :
    (dot_S1x256_S1024x256_S1x1024_1_1_0_0_n_n.rhsIdx i q 1).val = (q ⟨0, by decide⟩).val :=
  dot_S1x256_S1024x256_S1x1024_1_1_0_0_n_n.rhsIdx_val_of_single rfl i q

/-- One row times rows: entry `(u, q)` of `l · rᵀ` into the zero accumulator is the inner product of the row `l` and row `q` of `r`. -/
theorem ones_apply (l : FVec Ideal S1x256 .f32) (r : FVec Ideal S1024x256 .f32) (u : Fin 1) (q : Fin 1024) :
    matmul dot_S1x256_S1024x256_S1x1024_1_1_0_0_n_n none l r (constant S1x1024 .f32 0x00000000#32) (ix2 u q)
      = ∑ k : Fin 256, l (ix2 u k) * r (ix2 q k) := by
  simp only [matmul]
  rw [Ideal.matmul_constant_zero_apply, ← Equiv.sum_comp (contrEquiv1 dot_S1x256_S1024x256_S1x1024_1_1_0_0_n_n 256 rfl rfl).symm]
  refine Finset.sum_congr rfl fun k _ => ?_
  have hk := contrEquiv1_symm_val dot_S1x256_S1024x256_S1x1024_1_1_0_0_n_n 256 rfl rfl k
  have el : dot_S1x256_S1024x256_S1x1024_1_1_0_0_n_n.lhsIdx (ix2 u q) ((contrEquiv1 dot_S1x256_S1024x256_S1x1024_1_1_0_0_n_n 256 rfl rfl).symm k) = ix2 u k := funext fun a => Fin.ext (by
    match a with
    | ⟨0, _⟩ => exact lhs_ones_0 _ _
    | ⟨1, _⟩ => exact (lhs_ones_1 _ _).trans hk)
  have er : dot_S1x256_S1024x256_S1x1024_1_1_0_0_n_n.rhsIdx (ix2 u q) ((contrEquiv1 dot_S1x256_S1024x256_S1x1024_1_1_0_0_n_n 256 rfl rfl).symm k) = ix2 q k := funext fun a => Fin.ext (by
    match a with
    | ⟨0, _⟩ => exact rhs_ones_0 _ _
    | ⟨1, _⟩ => exact (rhs_ones_1 _ _).trans hk)
  rw [el, er]

/-! ## The body's three intermediate arrays, and the stored value -/

/-- ‖row‖² of the first block, as the body holds it: summed over the lanes, kept as a column, broadcast along the rows. -/
def sqNormRows (x0 : FVec Ideal S1024x256 .f32) : FVec Ideal S1024x1024 .f32 :=
  broadcastTo S1024x1024 (shapeCast S1024x1 (multiReduction .add [1] S1024
    (mulf (shapeCast S1024x256 x0 shapeCasts_S1024x256_S1024x256) (shapeCast S1024x256 x0 shapeCasts_S1024x256_S1024x256))
    0x00000000#32 reduces_S1024x256_S1024 (.inl rfl) rfl) shapeCasts_S1024_S1024x1) broadcasts_S1024x1_S1024x1024

/-- ‖row‖² of the second block, as the body holds it: the ones row times the squared block, broadcast down the columns. -/
def sqNormCols (x1 : FVec Ideal S1024x256 .f32) : FVec Ideal S1024x1024 .f32 :=
  broadcastTo S1024x1024 (matmul dot_S1x256_S1024x256_S1x1024_1_1_0_0_n_n none
    (broadcast S1x256 (Scalar.ofBits (F := Ideal) .f32 0x3F800000#32)) (mulf x1 x1) (constant S1x1024 .f32 0x00000000#32))
    broadcasts_S1x1024_S1024x1024

/-- The inner products of the first block's rows with the second's, as the body holds them. -/
def inner (x0 x1 : FVec Ideal S1024x256 .f32) : FVec Ideal S1024x1024 .f32 :=
  matmul dot_S1024x256_S1024x256_S1024x1024_1_1_0_0_n_n none
    (truncf .bf16 (shapeCast S1024x256 x0 shapeCasts_S1024x256_S1024x256) bitsLt_bf16_f32) (truncf .bf16 x1 bitsLt_bf16_f32)
    (constant S1024x1024 .f32 0x00000000#32)

theorem sqNormRows_apply (x0 : FVec Ideal S1024x256 .f32) (p q : Fin 1024) :
    sqNormRows x0 (ix2 p q) = ∑ k : Fin 256, x0 (ix2 p k) * x0 (ix2 p k) := by
  unfold sqNormRows
  rw [broadcastTo_a1_ab_apply, shapeCast_a_a1_apply, rowsum_apply, shapeCast_self]
  rfl

theorem sqNormCols_apply (x1 : FVec Ideal S1024x256 .f32) (p q : Fin 1024) :
    sqNormCols x1 (ix2 p q) = ∑ k : Fin 256, x1 (ix2 q k) * x1 (ix2 q k) := by
  unfold sqNormCols
  rw [broadcastTo_1b_ab_apply, ones_apply]
  refine Finset.sum_congr rfl fun k _ => ?_
  show Ideal.ofBits .f32 0x3F800000#32 * (x1 (ix2 q k) * x1 (ix2 q k)) = _
  rw [ofBits_one_f32, one_mul]

theorem inner_apply (x0 x1 : FVec Ideal S1024x256 .f32) (p q : Fin 1024) :
    inner x0 x1 (ix2 p q) = ∑ k : Fin 256, x0 (ix2 p k) * x1 (ix2 q k) := by
  unfold inner
  rw [cross_apply, shapeCast_self]
  rfl

/-- THE STORED VALUE at entry `(p, q)`: the distance between row `p` of the first block and row `q` of the second. -/
theorem pay_apply (x0 x1 : Vec Ideal S1024x256 .f32) (p q : Fin 1024) :
    k0_pay1 (F := Ideal) x0 x1 (ix2 p q) = rowDist (row2 x0 p) (row2 x1 q) := by
  show Ideal.sqrt (max ((sqNormRows x0 (ix2 p q) - Ideal.ofBits .f32 0x40000000#32 * inner x0 x1 (ix2 p q)) + sqNormCols x1 (ix2 p q))
    (Ideal.ofBits .f32 0x00000000#32)) = _
  rw [sqNormRows_apply, inner_apply, sqNormCols_apply]
  rfl

end Cert.KernelIdeal.Payload

end
-- ==== Proof.KernelValue.lean ====
/-
  The kernel's program read as a value, at the ideal values. The flattened h (8192 × 256, a reshape of the argument) and
  the codebook (16384 × 256) are staged in 1024-row blocks; grid point t works on row block i of the first and row block j
  of the second, (i, j) = the block index of its 1024 × 1024 output block. Entry (p, q) of what it writes back is the distance
  between row 1024·i + p of the flattened h and row 1024·j + q of the codebook, that is, the block of ONE 8192 × 16384 array
  of distances; the 8 × 16 blocks tile that array, so after the run the array is the distances, and the reshape after the
  region lays it out as 4 × 2048 × 16384.
-/
import proofs.«143879_j29695403884916_1_alg».proof.Proof.Gen.KernelIdeal.Frame
import proofs.«143879_j29695403884916_1_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.KernelIdeal.Payload Cert.Cdist

variable (m : (ℓ : Loc nD τ sig) → Buf (Elt Ideal) ℓ) (ρ : Dev nD → PrngReg)

/-- The flattened h as the region finds it. -/
abbrev harr (c : Dev nD) : Vec Ideal S8192x256 .f32 := V m c main_v0
/-- The codebook as the region finds it. -/
abbrev warr (c : Dev nD) : Vec Ideal S16384x256 .f32 := V m c main_arg1
/-- The block of the flattened h staged at point `t`. -/
abbrev hblk (c : Dev nD) (t : Fin cfg0.N) : Vec Ideal S1024x256 .f32 := iblk m c 0 t
/-- The block of the codebook staged at point `t`. -/
abbrev wblk (c : Dev nD) (t : Fin cfg0.N) : Vec Ideal S1024x256 .f32 := iblk m c 1 t

theorem hz : (![0, 0] : Fin 2 → Nat) = fun _ => 0 := funext fun a => by fin_cases a <;> rfl

/-- The block indices over the grid: the first input follows the output's row block, the second the output's column block,
    both at column block 0; the output's block indices stay inside 8 × 16. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 15 :=
  (by decide +kernel : ∀ t : Fin grid0.N, _)

/-- Every block of the 8 × 16 tiling is some point's. -/
theorem idx_onto : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-- Entry `(p, k)` of the first staged block is the flattened h at row `1024·(block) + p`. -/
theorem hblk_apply (c : Dev nD) (t : Fin cfg0.N) (p : Fin 1024) (k : Fin 256) (r : Fin 8192)
    (hr : r.val = win0_0.index t (0 : Fin 2) * 1024 + p.val) :
    hblk m c t (ix2 p k) = harr m c (ix2 r k) := by
  obtain ⟨e0, e1, e2, e3, e4, e5⟩ := idx_facts t
  unfold hblk iblk
  rw [View.read_apply]
  show V m c main_v0 _ = V m c main_v0 _
  congr 1
  funext a
  apply Fin.ext
  match a with
  | ⟨0, _⟩ => show win0_0.index t (0 : Fin 2) * 1024 + 1 * p.val = r.val; omega
  | ⟨1, _⟩ => show win0_0.index t (1 : Fin 2) * 256 + 1 * k.val = k.val; omega

/-- Entry `(q, k)` of the second staged block is the codebook at row `1024·(block) + q`. -/
theorem wblk_apply (c : Dev nD) (t : Fin cfg0.N) (q : Fin 1024) (k : Fin 256) (v : Fin 16384)
    (hv : v.val = win0_1.index t (0 : Fin 2) * 1024 + q.val) :
    wblk m c t (ix2 q k) = warr m c (ix2 v k) := by
  obtain ⟨e0, e1, e2, e3, e4, e5⟩ := idx_facts t
  unfold wblk iblk
  rw [View.read_apply]
  show V m c main_arg1 _ = V m c main_arg1 _
  congr 1
  funext a
  apply Fin.ext
  match a with
  | ⟨0, _⟩ => show win0_1.index t (0 : Fin 2) * 1024 + 1 * q.val = v.val; omega
  | ⟨1, _⟩ => show win0_1.index t (1 : Fin 2) * 256 + 1 * k.val = k.val; omega

/-- What point `t` stores at `(p, q)` is the distance array at the entry of the whole array that `(p, q)` of its block is. -/
theorem stored_apply (c : Dev nD) (t : Fin cfg0.N) (p q : Fin 1024) (i : S8192x16384.Idx)
    (hi0 : (i 0).val = win0_2.index t (0 : Fin 2) * 1024 + p.val)
    (hi1 : (i 1).val = win0_2.index t (1 : Fin 2) * 1024 + q.val) :
    k0_pay1 (F := Ideal) (hblk m c t) (wblk m c t) (ix2 p q) = dist2 (M := 8192) (N := 16384) (harr m c) (warr m c) i := by
  obtain ⟨e0, e1, e2, e3, e4, e5⟩ := idx_facts t
  refine (pay_apply _ _ p q).trans ?_
  have hx : row2 (M := 1024) (hblk m c t) p = row2 (M := 8192) (harr m c) (i 0) :=
    funext fun k => hblk_apply m c t p k (i 0) (by rw [e0]; exact hi0)
  have hy : row2 (M := 1024) (wblk m c t) q = row2 (M := 16384) (warr m c) (i 1) :=
    funext fun k => wblk_apply m c t q k (i 1) (by rw [e2]; exact hi1)
  show rowDist _ _ = rowDist _ _
  rw [hx, hy]

/-- WHAT POINT `t` WRITES BACK is block `t` of the distance array of the flattened h and the codebook. -/
theorem flushed_eq (c : Dev nD) (t : Fin cfg0.N) :
    (dats m 0 c).flushed 2 t = ((cfg0.win 2).blk t).view.read (Elt Ideal) (dist2 (M := 8192) (N := 16384) (harr m c) (warr m c)) := by
  show (cfg0.win 2).cut (grid0.coords t) ((dats m 0 c).after 2 t) = _
  rw [after0_2]
  unfold out0_2
  rw [View.canon_unit_zero hz]
  simp only [View.ld_unit_zero (S := S1024x256) hz]
  funext j
  obtain ⟨p, q, rfl⟩ : ∃ (p q : Fin 1024), j = ix2 p q := ⟨j 0, j 1, eq_ix2 j⟩
  show k0_pay1 (F := Ideal) (hblk m c t) (wblk m c t) (ix2 p q)
    = dist2 (M := 8192) (N := 16384) (harr m c) (warr m c) (((cfg0.win 2).blk t).view.emb (ix2 p q))
  refine stored_apply m c t p q _ ?_ ?_
  · show win0_2.index t (0 : Fin 2) * 1024 + 1 * p.val = _; omega
  · show win0_2.index t (1 : Fin 2) * 1024 + 1 * q.val = _; omega

/-- An index of the array is in point `t`'s block iff each coordinate is in the block's range on its axis. -/
theorem mem_blk (t : Fin cfg0.N) (i : S8192x16384.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The blocks tile the array: entry `(r, v)` is in the block with block index `(r / 1024, v / 1024)`. -/
theorem cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the region: the distances from each row of the flattened h to each row of the codebook. -/
theorem final (c : Dev nD) : (dats m 0 c).arrAt 2 cfg0.N = dist2 (M := 8192) (N := 16384) (harr m c) (warr m c) :=
  (dats m 0 c).arrAt_eq_of_cover 2 _ (fun t _ => flushed_eq m c t) cover

/-- The flattened h is the reshape of the argument. -/
theorem harr_eq (c : Dev nD) :
    harr m c = shapeCast S8192x256 (m ((c : Thread nD τ).loc main_arg0)) shapeCasts_S4x2048x256_S8192x256 := by
  show StableHlo.after hostOps0 (fun b => m (c, b)) (Proc.devRef .tc main_v0) = _
  after_results
  rfl

/-- The codebook is the argument. -/
theorem warr_eq (c : Dev nD) : warr m c = m ((c : Thread nD τ).loc main_arg1) := V_main_arg1 m c

/-- The program's result: the distance array laid out as 4 × 2048 × 16384. -/
abbrev result (c : Dev nD) : Vec Ideal S4x2048x16384 .f32 :=
  shapeCast S4x2048x16384 (dist2 (M := 8192) (N := 16384)
    (shapeCast S8192x256 (m ((c : Thread nD τ).loc main_arg0)) shapeCasts_S4x2048x256_S8192x256)
    (m ((c : Thread nD τ).loc main_arg1))) shapeCasts_S8192x16384_S4x2048x16384

/-- The reshape after the region, of the array the region leaves. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [(Pipeline.withArrays_arr spec0 launch0.win.arr_inj c _ _ 2).trans (final m c), harr_eq, warr_eq]
  rfl

/-- The run, read: the result at the distances, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference's result, read at an index (b, s, v), is the distance between row (b, s) of h and row v of the codebook:
  its two row sums start from the value of the word 0x00000000, which is 0, and 0 + t = t on the extended reals; its
  dot_general is the plain inner product of the two rows; subtraction, addition, maximum and square root are the
  extended reals' own on both sides.
-/
import proofs.«143879_j29695403884916_1_alg».proof.Defs
import proofs.«143879_j29695403884916_1_alg».proof.Proof.Gen.ReferenceIdeal.Run
import proofs.«143879_j29695403884916_1_alg».proof.Proof.Gen.ReferenceIdeal.Read
import proofs.«143879_j29695403884916_1_alg».proof.Proof.Spec

noncomputable section

open Idealize.ShloMosaic Idealize.ShloMosaic.ValueIdx Idealize.SL.Sem

namespace Cert.ReferenceIdeal.RefValue

open Cert.ReferenceIdeal Cert.ReferenceIdeal.Read Cert.Cdist

/-- The reference's last stage is the distance array. -/
theorem ref_eq (h : (⟨S4x2048x256, .f32⟩ : BufTy).Contents (Elt Ideal)) (w : (⟨S16384x256, .f32⟩ : BufTy).Contents (Elt Ideal)) :
    val_main_v15 (F := Ideal) h w = dist3 (A := 4) (B := 2048) (N := 16384) h w := by
  funext i
  have e1 : ∀ k : Fin 256, idx_main_v1 (idx_main_v2 (idx_main_v8 i)) k = ix3 (i 0) (i 1) k := fun k =>
    funext fun a => by match a with | ⟨0, _⟩ => rfl | ⟨1, _⟩ => rfl | ⟨2, _⟩ => rfl
  have e4 : ∀ k : Fin 256, idx_main_v4 (idx_main_v10 (idx_main_v11 i)) k = ix2 (i 2) k := fun k =>
    funext fun a => by match a with | ⟨0, _⟩ => rfl | ⟨1, _⟩ => rfl
  have el : ∀ k : Fin 256, lidx_main_v5 i k = ix3 (i 0) (i 1) k := fun k =>
    funext fun a => by match a with | ⟨0, _⟩ => rfl | ⟨1, _⟩ => rfl | ⟨2, _⟩ => rfl
  have er : ∀ k : Fin 256, ridx_main_v5 i k = ix2 (i 2) k := fun k =>
    funext fun a => by match a with | ⟨0, _⟩ => rfl | ⟨1, _⟩ => rfl
  rw [val_main_v15_apply, val_main_v14_apply, val_main_v12_apply, val_main_v13_apply, val_main_cst_2_apply,
    val_main_v9_apply, val_main_v11_apply, val_main_v10_apply, val_main_v4_apply, val_main_cst_0_apply,
    val_main_v8_apply, val_main_v2_apply, val_main_v1_apply, val_main_cst_apply,
    val_main_v7_apply, val_main_v6_apply, val_main_cst_1_apply, val_main_v5_apply]
  simp only [val_main_v0_apply, val_main_v3_apply, e1, e4, el, er, Ideal.hostUnary_sqrt_def, Ideal.maximumf_def,
    Ideal.addf_def, Ideal.subf_def, Ideal.mulf_def, Ideal.ofBits_def]
  unfold dist3 rowDist
  simp only [Ideal.ofBits_zero_f32, zero_add]
  rfl

end Cert.ReferenceIdeal.RefValue

end
-- ==== Proof.lean ====
/-
  The certificate of the codebook-distance kernel against its jnp reference.

  Both programs compute, for every row (b, s) of h (4 × 2048 rows of 256) and every row v of the codebook (16384 rows of 256),
  sqrt (max ((‖h_bs‖² − 2·⟨h_bs, w_v⟩) + ‖w_v‖², 0)) with the same grouping and the same two constants. They differ in how the
  three sums are produced: the kernel flattens h to 8192 rows, works on 1024 × 1024 output blocks, takes ‖w_v‖² as a product
  with a row of ones and ⟨h, w⟩ after a change of format to bf16; the reference sums from an initial 0 and contracts with one
  dot_general. At the ideal values a format change is the identity, 1 · t = t, 0 + t = t, and every sum is the plain sum over the
  256 coordinates, so the two results are equal entry by entry on every input, the infinities included: the precondition is
  not needed for the equality. The idealization rewrote nothing, so `preserves` is trivial; the three frames are the generated
  runs with the results dropped.
-/
import proofs.«143879_j29695403884916_1_alg».proof.Defs
import proofs.«143879_j29695403884916_1_alg».proof.Proof.Gen.Kernel
import proofs.«143879_j29695403884916_1_alg».proof.Proof.Gen.Kernel.Skeleton
import proofs.«143879_j29695403884916_1_alg».proof.Proof.Gen.Kernel.Launch
import proofs.«143879_j29695403884916_1_alg».proof.Proof.Gen.Kernel.Points
import proofs.«143879_j29695403884916_1_alg».proof.Proof.Gen.Kernel.Frame
import proofs.«143879_j29695403884916_1_alg».proof.Proof.Gen.KernelIdeal
import proofs.«143879_j29695403884916_1_alg».proof.Proof.Gen.KernelIdeal.Skeleton
import proofs.«143879_j29695403884916_1_alg».proof.Proof.Gen.KernelIdeal.Launch
import proofs.«143879_j29695403884916_1_alg».proof.Proof.Gen.KernelIdeal.Points
import proofs.«143879_j29695403884916_1_alg».proof.Proof.Gen.KernelIdeal.Frame
import proofs.«143879_j29695403884916_1_alg».proof.Proof.Gen.ReferenceIdeal
import proofs.«143879_j29695403884916_1_alg».proof.Proof.Gen.ReferenceIdeal.Run
import proofs.«143879_j29695403884916_1_alg».proof.Proof.Gen.ReferenceIdeal.Read
import proofs.«143879_j29695403884916_1_alg».proof.Proof.Gen.Pre_finite_inputs
import proofs.«143879_j29695403884916_1_alg».proof.Proof.Spec
import proofs.«143879_j29695403884916_1_alg».proof.Proof.Layout
import proofs.«143879_j29695403884916_1_alg».proof.Proof.KernelValue
import proofs.«143879_j29695403884916_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on h and the codebook, the kernel's result array ends at the distances over the flattened rows
    laid out as 4 × 2048 × 16384, the reference's at the distances over (b, s, v): one array. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, (hagree c).1, (hagree c).2]
  exact (Cert.Cdist.result_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
